-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x32 : Shape := ⟨2, ![100000, 32]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : IVec S1600000 32) (main_arg1 : IVec S1600000 32) (main_arg2 : FVec F S1600000 .f32) (main_arg3 : FVec F S100000x32 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x32 .f32 := Host.absf main_arg3
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1600000 : Shape := ⟨1, ![1600000]⟩
abbrev S100000x32 : Shape := ⟨2, ![100000, 32]⟩
abbrev S_ : Shape := ⟨0, ![]⟩
abbrev S1601536 : Shape := ⟨1, ![1601536]⟩
abbrev S1601536x1 : Shape := ⟨2, ![1601536, 1]⟩
abbrev S1601536x32 : Shape := ⟨2, ![1601536, 32]⟩
abbrev S2048 : Shape := ⟨1, ![2048]⟩
abbrev S2048x32 : Shape := ⟨2, ![2048, 32]⟩
abbrev S2000x32 : Shape := ⟨2, ![2000, 32]⟩
abbrev S1x2048 : Shape := ⟨2, ![1, 2048]⟩
abbrev S2000x2048 : Shape := ⟨2, ![2000, 2048]⟩

abbrev nBuf : Space → Nat
  | .hbm => 27
  | .vmem => 6
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x32, .f32⟩
  | .hbm, ⟨4, _⟩ => ⟨S_, .i32⟩
  | .hbm, ⟨5, _⟩ => ⟨S_, .i32⟩
  | .hbm, ⟨6, _⟩ => ⟨S1601536, .i32⟩
  | .hbm, ⟨7, _⟩ => ⟨S_, .i32⟩
  | .hbm, ⟨8, _⟩ => ⟨S_, .i32⟩
  | .hbm, ⟨9, _⟩ => ⟨S1601536, .i32⟩
  | .hbm, ⟨10, _⟩ => ⟨S_, .i32⟩
  | .hbm, ⟨11, _⟩ => ⟨S_, .f32⟩
  | .hbm, ⟨12, _⟩ => ⟨S1601536, .f32⟩
  | .hbm, ⟨13, _⟩ => ⟨S_, .i32⟩
  | .hbm, ⟨14, _⟩ => ⟨S1601536, .i32⟩
  | .hbm, ⟨15, _⟩ => ⟨S1601536, .i1⟩
  | .hbm, ⟨16, _⟩ => ⟨S_, .i32⟩
  | .hbm, ⟨17, _⟩ => ⟨S1601536, .i32⟩
  | .hbm, ⟨18, _⟩ => ⟨S1601536, .i32⟩
  | .hbm, ⟨19, _⟩ => ⟨S1601536, .i32⟩
  | .hbm, ⟨20, _⟩ => ⟨S1601536x1, .i32⟩
  | .hbm, ⟨21, _⟩ => ⟨S1601536x32, .f32⟩
  | .hbm, ⟨22, _⟩ => ⟨S1601536x1, .f32⟩
  | .hbm, ⟨23, _⟩ => ⟨S1601536x32, .f32⟩
  | .hbm, ⟨24, _⟩ => ⟨S1601536x32, .f32⟩
  | .hbm, ⟨25, _⟩ => ⟨S1601536x32, .bf16⟩
  | .hbm, ⟨26, _⟩ => ⟨S100000x32, .f32⟩
  | .local _ .vmem, ⟨0, _⟩ => ⟨S2048, .i32⟩
  | .local _ .vmem, ⟨1, _⟩ => ⟨S2048, .i32⟩
  | .local _ .vmem, ⟨2, _⟩ => ⟨S2048x32, .bf16⟩
  | .local _ .vmem, ⟨3, _⟩ => ⟨S2048x32, .bf16⟩
  | .local _ .vmem, ⟨4, _⟩ => ⟨S2000x32, .f32⟩
  | .local _ .vmem, ⟨5, _⟩ => ⟨S2000x32, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_v3 : Ref sig .tc := ⟨.hbm, 14, rfl⟩
abbrev main_v4 : Ref sig .tc := ⟨.hbm, 15, rfl⟩
abbrev main_c_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![50, 782], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S1600000_S1601536_015360 : S1600000.Pads (![0] : Fin 1 → Nat) ![1536] ![0] S1601536
  h_S_ : 0 < S_.numel
  bcast_S_S1601536 : S_.BroadcastsInDim S1601536 (![] : Fin 0 → Fin S1601536.rank)
  bcast_S1601536_S1601536x1_0 : S1601536.BroadcastsInDim S1601536x1 (![0] : Fin 1 → Fin S1601536x1.rank)
  bcast_S1601536x1_S1601536x32_0_1 : S1601536x1.BroadcastsInDim S1601536x32 (![0, 1] : Fin 2 → Fin S1601536x32.rank)
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  shapeCasts_S1x2048_S1x2048 : S1x2048.ShapeCasts S1x2048
  broadcasts_S1x2048_S2000x2048 : S1x2048.Broadcasts S2000x2048
  iota_S2000x2048_d0_w32 : S2000x2048.Iotas .tc 32 [0]
  natLt_1_32 : 1 < 32
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  shapeCasts_S2000x32_S2000x32 : S2000x32.ShapeCasts S2000x32
  gather_S100000x32_S1601536x1_S1601536x32_1_0_n_n_0_1_132_wf : GatherDims.WF S100000x32 S1601536x1 S1601536x32 [1] [0] [] [0] [] 1 ![1, 32]
  dot_S2000x2048_S2048x32_S2000x32_1_0_0_1_n_n_wf : DotDims.WF S2000x2048 S2048x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1601536.size a
  hwx0_0 : ∀ i : grid0.Coords, EltTy.bits .i32 = 32 ∨ (Rect.block (s := S1601536) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S1601536x32.size a
  hwx0_1 : ∀ i : grid0.Coords, EltTy.bits .bf16 = 32 ∨ (Rect.block (s := S1601536x32) S2048x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)

variable [Facts₀]

def gather_S100000x32_S1601536x1_S1601536x32_1_0_n_n_0_1_132 : GatherDims S100000x32 S1601536x1 S1601536x32 where
  offsetDims := [1]
  collapsedSliceDims := [0]
  operandBatchingDims := []
  startIndicesBatchingDims := []
  startIndexMap := [0]
  indexVectorDim := 1
  sliceSizes := ![1, 32]
  wf := gather_S100000x32_S1601536x1_S1601536x32_1_0_n_n_0_1_132_wf
def dot_S2000x2048_S2048x32_S2000x32_1_0_0_1_n_n : DotDims S2000x2048 S2048x32 S2000x32 where
  lhsContracting := [1]
  rhsContracting := [0]
  lhsNonContracting := [0]
  rhsNonContracting := [1]
  lhsBatch := []
  rhsBatch := []
  wf := dot_S2000x2048_S2048x32_S2000x32_1_0_0_1_n_n_wf

abbrev win0_0 : Pipeline.Window sig grid0 :=
  Pipeline.Window.ofSpec (Memref.whole main_v0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000 : Shape := ⟨1, ![1600000]⟩
abbrev S100000x32 : Shape := ⟨2, ![100000, 32]⟩
abbrev S_ : Shape := ⟨0, ![]⟩
abbrev S1600000x1 : Shape := ⟨2, ![1600000, 1]⟩
abbrev S1600000x32 : Shape := ⟨2, ![1600000, 32]⟩

abbrev nBuf : Space → Nat
  | .hbm => 20
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S100000x32, .f32⟩
  | .hbm, ⟨4, _⟩ => ⟨S_, .i32⟩
  | .hbm, ⟨5, _⟩ => ⟨S1600000, .i32⟩
  | .hbm, ⟨6, _⟩ => ⟨S1600000, .i1⟩
  | .hbm, ⟨7, _⟩ => ⟨S_, .i32⟩
  | .hbm, ⟨8, _⟩ => ⟨S1600000, .i32⟩
  | .hbm, ⟨9, _⟩ => ⟨S1600000, .i32⟩
  | .hbm, ⟨10, _⟩ => ⟨S1600000, .i32⟩
  | .hbm, ⟨11, _⟩ => ⟨S1600000x1, .i32⟩
  | .hbm, ⟨12, _⟩ => ⟨S1600000x32, .f32⟩
  | .hbm, ⟨13, _⟩ => ⟨S1600000x1, .f32⟩
  | .hbm, ⟨14, _⟩ => ⟨S1600000x32, .f32⟩
  | .hbm, ⟨15, _⟩ => ⟨S1600000x32, .f32⟩
  | .hbm, ⟨16, _⟩ => ⟨S_, .f32⟩
  | .hbm, ⟨17, _⟩ => ⟨S100000x32, .f32⟩
  | .hbm, ⟨18, _⟩ => ⟨S1600000x1, .i32⟩
  | .hbm, ⟨19, _⟩ => ⟨S100000x32, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibWords.lean ====
/-
  Machine words against the integers they denote, for a one-hot selector built from an equality test:
  the test's bit widened and converted is the real number `1` or `0`; a row number assembled as
  `local + block * 2000` in 32-bit words is the word of the natural number it spells; and a word equals the word
  of a small natural exactly when, read signed, it IS that natural.
-/
import Idealize.ShloMosaic.Lib.ValueIdx
import Idealize.ShloMosaic.PureOps.Ideal.Laws

noncomputable section

namespace Cert.LibWords

open Idealize.ShloMosaic

/-- The equality test's bit, widened to a word and read as a signed integer, is `1` on equal words and `0` on
    different ones. -/
theorem toInt_setWidth_cmpi_eq (a b : BitVec 32) :
    (((IntOp.cmpi .eq a b).setWidth 32).toInt : ℤ) = if a = b then 1 else 0 := by
  by_cases h : a = b
  · subst h
    rw [if_pos rfl]
    have : IntOp.cmpi .eq a a = 1#1 := by simp [IntOp.cmpi]
    rw [this]; decide
  · rw [if_neg h]
    have : IntOp.cmpi .eq a b = 0#1 := by
      show BitVec.ofBool (a == b) = 0#1
      rw [beq_eq_false_iff_ne.mpr h]; rfl
    rw [this]; decide

/-- … so converted to an exact real it is the indicator of equality. -/
theorem indicator_of_cmpi_eq (a b : BitVec 32) :
    ((((IntOp.cmpi .eq a b).setWidth 32).toInt : ℝ) : EReal) = if a = b then (1 : EReal) else 0 := by
  rw [toInt_setWidth_cmpi_eq]
  by_cases h : a = b
  · rw [if_pos h, if_pos h]; norm_num
  · rw [if_neg h, if_neg h]; norm_num

/-- A row number spelt `local + block * 2000` in 32-bit words is the word of that natural number. -/
theorem ofNat_add_mul (p b : ℕ) :
    BitVec.ofNat 32 p + BitVec.ofNat 32 b * 2000#32 = BitVec.ofNat 32 (b * 2000 + p) := by
  apply BitVec.eq_of_toNat_eq
  simp only [BitVec.toNat_add, BitVec.toNat_mul, BitVec.toNat_ofNat]
  omega

/-- A 32-bit word is the word of a natural below `2^31` exactly when its signed reading is that natural. -/
theorem eq_ofNat_iff_toInt (x : BitVec 32) (r : ℕ) (hr : r < 2147483648) :
    x = BitVec.ofNat 32 r ↔ x.toInt = (r : ℤ) := by
  constructor
  · intro h
    subst h
    rw [BitVec.toInt_eq_toNat_cond, BitVec.toNat_ofNat]
    have : r % 2 ^ 32 = r := Nat.mod_eq_of_lt (by omega)
    rw [this]
    split <;> omega
  · intro h
    apply BitVec.eq_of_toNat_eq
    rw [BitVec.toNat_ofNat]
    have hx := x.isLt
    rw [BitVec.toInt_eq_toNat_cond] at h
    have : r % 2 ^ 32 = r := Nat.mod_eq_of_lt (by omega)
    rw [this]
    split at h <;> omega

end Cert.LibWords

end
-- ==== Proof.Payload.lean ====
/-
  One grid point's arithmetic at the exact reals. The body builds the one-hot selector
  `sel[p, k] = [rows_blk[k] = base + p]` (base = 2000 · the row-block number) of the point's 2048 row numbers,
  multiplies it into the point's 2048 × 32 block of scaled features, and adds the product to what the output block
  held. Read at entry `(p, q)` the result is the carried entry plus the sum, over the 2048 positions, of
  indicator × scaled feature: the contraction over the one shared axis, the selector's entries `1` or `0`.
-/
import proofs.«402072_j8856222564800_1_alg».proof.Proof.Gen.KernelIdeal.Skeleton
import proofs.«402072_j8856222564800_1_alg».proof.Proof.LibWords
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The contraction's operand indices -/

theorem lhs_axis0 (j : S2000x32.Idx) (k : dot_S2000x2048_S2048x32_S2000x32_1_0_0_1_n_n.contr.Idx) :
    (dot_S2000x2048_S2048x32_S2000x32_1_0_0_1_n_n.lhsIdx j k 0 : ℕ) = j 0 := by
  simp [DotDims.lhsIdx, dot_S2000x2048_S2048x32_S2000x32_1_0_0_1_n_n]; rfl
theorem lhs_axis1 (j : S2000x32.Idx) (k : dot_S2000x2048_S2048x32_S2000x32_1_0_0_1_n_n.contr.Idx) :
    (dot_S2000x2048_S2048x32_S2000x32_1_0_0_1_n_n.lhsIdx j k 1 : ℕ) = k ⟨0, by decide⟩ := by
  simp [DotDims.lhsIdx, dot_S2000x2048_S2048x32_S2000x32_1_0_0_1_n_n]; rfl
theorem rhs_axis0 (j : S2000x32.Idx) (k : dot_S2000x2048_S2048x32_S2000x32_1_0_0_1_n_n.contr.Idx) :
    (dot_S2000x2048_S2048x32_S2000x32_1_0_0_1_n_n.rhsIdx j k 0 : ℕ) = k ⟨0, by decide⟩ := by
  simp [DotDims.rhsIdx, dot_S2000x2048_S2048x32_S2000x32_1_0_0_1_n_n]; rfl
theorem rhs_axis1 (j : S2000x32.Idx) (k : dot_S2000x2048_S2048x32_S2000x32_1_0_0_1_n_n.contr.Idx) :
    (dot_S2000x2048_S2048x32_S2000x32_1_0_0_1_n_n.rhsIdx j k 1 : ℕ) = j 1 := by
  simp [DotDims.rhsIdx, dot_S2000x2048_S2048x32_S2000x32_1_0_0_1_n_n]; rfl

/-- The contracted positions are `Fin 2048`. -/
abbrev contr2048 : dot_S2000x2048_S2048x32_S2000x32_1_0_0_1_n_n.contr.Idx ≃ Fin 2048 :=
  contrEquiv1 dot_S2000x2048_S2048x32_S2000x32_1_0_0_1_n_n 2048 (by decide) (by decide)

theorem lhs_at (p : Fin 2000) (q : Fin 32) (k : Fin 2048) :
    dot_S2000x2048_S2048x32_S2000x32_1_0_0_1_n_n.lhsIdx (ix2 p q) (contr2048.symm k) = ix2 p k :=
  Shape.idx_ext₂ (by rw [lhs_axis0]) (by rw [lhs_axis1]; exact contrEquiv1_symm_val _ _ _ _ k)

theorem rhs_at (p : Fin 2000) (q : Fin 32) (k : Fin 2048) :
    dot_S2000x2048_S2048x32_S2000x32_1_0_0_1_n_n.rhsIdx (ix2 p q) (contr2048.symm k) = ix2 k q :=
  Shape.idx_ext₂ (by rw [rhs_axis0]; exact contrEquiv1_symm_val _ _ _ _ k) (by rw [rhs_axis1])

/-! ## The selector -/

/-- The word local row `p` of row block `b` is compared with: `p + b · 2000`, in 32-bit words. -/
def rowWord (b : ℕ) (p : Fin 2000) : BitVec 32 := BitVec.ofNat 32 p.val + BitVec.ofNat 32 b * 2000#32

/-- The selector as the body builds it from the point's row numbers `x0`, at row block `b`. -/
def sel (b : ℕ) (x0 : IVec S2048 32) : FVec Ideal S2000x2048 .bf16 :=
  truncf .bf16 (sitofp .f32 (extui 32 (cmpi .eq
    (broadcastTo S2000x2048 (shapeCast S1x2048 (shapeCast S1x2048 (shapeCast S2048 x0 shapeCasts_S2048_S2048) shapeCasts_S2048_S1x2048) shapeCasts_S1x2048_S1x2048) broadcasts_S1x2048_S2000x2048)
    (addi (iota .tc S2000x2048 32 [0] iota_S2000x2048_d0_w32) (broadcast S2000x2048 (Scalar.muli (BitVec.ofNat 32 b) 2000#32)))) natLt_1_32)) bitsLt_bf16_f32

/-- THE SELECTOR AT `(p, k)`: `1` when position `k`'s row number is the word of row `p` of the block, else `0`. -/
theorem sel_apply (b : ℕ) (x0 : IVec S2048 32) (p : Fin 2000) (k : Fin 2048) :
    sel b x0 (ix2 p k) = if x0 (ix1 k) = rowWord b p then (1 : EReal) else 0 := by
  have hrows : broadcastTo S2000x2048 (shapeCast S1x2048 (shapeCast S1x2048 (shapeCast S2048 x0 shapeCasts_S2048_S2048) shapeCasts_S2048_S1x2048) shapeCasts_S1x2048_S1x2048) broadcasts_S1x2048_S2000x2048 (ix2 p k)
      = x0 (ix1 k) := by
    rw [broadcastTo_1b_ab_apply, shapeCast_self, shapeCast_a_1a_apply, shapeCast_self]
  have hiota : iota .tc S2000x2048 32 [0] iota_S2000x2048_d0_w32 (ix2 p k) = BitVec.ofNat 32 p.val :=
    iota_single_apply .tc S2000x2048 32 0 iota_S2000x2048_d0_w32 (ix2 p k)
  show ((((IntOp.cmpi .eq
      (broadcastTo S2000x2048 (shapeCast S1x2048 (shapeCast S1x2048 (shapeCast S2048 x0 shapeCasts_S2048_S2048) shapeCasts_S2048_S1x2048) shapeCasts_S1x2048_S1x2048) broadcasts_S1x2048_S2000x2048 (ix2 p k))
      (IntOp.addi (iota .tc S2000x2048 32 [0] iota_S2000x2048_d0_w32 (ix2 p k)) (Scalar.muli (BitVec.ofNat 32 b) 2000#32))).setWidth 32).toInt : ℝ) : EReal) = _
  rw [hrows, hiota, Cert.LibWords.indicator_of_cmpi_eq]
  rfl

/-! ## The payload -/

/-- THE POINT'S RESULT AT `(p, q)`: what the block held there plus the sum, over the point's 2048 positions, of
    [position `k`'s row number is row `p` of the block] × the scaled feature at `(k, q)`. -/
theorem pay2_apply (i : grid0.Coords) (x0 : Vec Ideal S2048 .i32) (x1 : Vec Ideal S2048x32 .bf16) (acc : Vec Ideal S2000x32 .f32)
    (p : Fin 2000) (q : Fin 32) :
    k0_pay2 (F := Ideal) i x0 x1 acc (ix2 p q)
      = acc (ix2 p q) + ∑ k : Fin 2048, (if x0 (ix1 k) = rowWord (i 0).val p then (1 : EReal) else 0) * x1 (ix2 k q) := by
  show (shapeCast S2000x32 acc shapeCasts_S2000x32_S2000x32) (ix2 p q)
      + FloatOps.matmul (F := Ideal) dot_S2000x2048_S2048x32_S2000x32_1_0_0_1_n_n none (sel (i 0).val x0)
          (shapeCast S2048x32 x1 shapeCasts_S2048x32_S2048x32) (constant S2000x32 .f32 0x00000000#32) (ix2 p q) = _
  rw [shapeCast_self, shapeCast_self, Ideal.matmul_constant_zero_apply, ← Equiv.sum_comp contr2048.symm]
  refine congrArg (acc (ix2 p q) + ·) (Finset.sum_congr rfl fun k _ => ?_)
  rw [lhs_at, rhs_at, sel_apply]

/-- The reset's payload is the zero block. -/
theorem pay1_apply (j : S2000x32.Idx) : k0_pay1 (F := Ideal) j = 0 := by
  show Ideal.ofBits .f32 0x00000000#32 = 0
  exact Ideal.ofBits_zero_f32

end Cert.KernelIdeal.Payload

end
-- ==== Proof.LibRowIndex.lean ====
/-
  Row indexing on the host, read at an index. A table of `R` rows and `C` columns gathered at `E` row numbers
  (`table[idx]`: result row `e` is the table's row `idx e`, the number read signed and clamped into `[0, R - 1]`), and
  `E` rows added into a table of `R` rows at `E` row numbers (a segment sum: update row `e` lands on row `idx e`
  read signed and NOT clamped, and is dropped when that is no row of the table). At the exact reals the
  accumulating scatter is, at row `r`, the sum of the update rows whose number is `r`.
-/
import Idealize.ShloMosaic.Lib.ValueIdx
import Idealize.ShloMosaic.PureOps.Ideal.Laws
import Idealize.ShloMosaic.Lib.Pipeline.Value

noncomputable section

namespace Cert.LibRowIndex

open Idealize.ShloMosaic Idealize.ShloMosaic.ValueIdx

/-! ## The row gather -/

section Gather
variable {α : Type}

/-- The dimension numbers of `table[idx]` along rows: operand `[R, C]`, start indices `[E, 1]`, result `[E, C]`. -/
abbrev rowGatherDims (R C E : Nat)
    (wf : GatherDims.WF ⟨2, ![R, C]⟩ ⟨2, ![E, 1]⟩ ⟨2, ![E, C]⟩ [1] [0] [] [0] [] 1 ![1, C]) :
    GatherDims ⟨2, ![R, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start word selects: read signed, clamped into `[0, R - 1]`. -/
def clampRow (R : Nat) {w : Nat} (b : BitVec w) : Nat := min b.toInt.toNat (R - 1)

theorem clampRow_lt {R : Nat} (hR : 0 < R) {w : Nat} (b : BitVec w) : clampRow R b < R := by
  unfold clampRow; omega

/-- On the row axis the gathered operand index is the clamped start word. -/
theorem rowGather_axis0 {R C E w : Nat}
    (wf : GatherDims.WF ⟨2, ![R, C]⟩ ⟨2, ![E, 1]⟩ ⟨2, ![E, C]⟩ [1] [0] [] [0] [] 1 ![1, C])
    (idx : IVec ⟨2, ![E, 1]⟩ w) (e : Fin E) (q : Fin C) :
    (rowGatherDims R C E wf).start (ix2 e q) idx 0 + (rowGatherDims R C E wf).batchCoord (ix2 e q) 0
      + (rowGatherDims R C E wf).offCoord (ix2 e q) 0 = clampRow R (idx (ix2 e ⟨0, Nat.one_pos⟩)) := by
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowGatherDims R C E wf).startIndexMap from List.mem_singleton.mpr rfl)]
  have hsi : (rowGatherDims R C E wf).siIdx (ix2 e q) ⟨List.idxOf (0 : Fin 2) (rowGatherDims R C E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- On the column axis the gathered operand index is the result's column. -/
theorem rowGather_axis1 {R C E w : Nat}
    (wf : GatherDims.WF ⟨2, ![R, C]⟩ ⟨2, ![E, 1]⟩ ⟨2, ![E, C]⟩ [1] [0] [] [0] [] 1 ![1, C])
    (idx : IVec ⟨2, ![E, 1]⟩ w) (e : Fin E) (q : Fin C) :
    (rowGatherDims R C E wf).start (ix2 e q) idx 1 + (rowGatherDims R C E wf).batchCoord (ix2 e q) 1
      + (rowGatherDims R C E wf).offCoord (ix2 e q) 1 = q.val := by
  have h10 : ¬(1 : Fin 2) ∈ ([0] : List (Fin 2)) := by decide
  rw [GatherDims.batchCoord_eq_zero _ _ _ List.not_mem_nil, Nat.add_zero]
  unfold GatherDims.start
  rw [dif_neg (show ¬(1 : Fin 2) ∈ (rowGatherDims R C E wf).startIndexMap from h10), Nat.zero_add]
  unfold GatherDims.offCoord
  rw [dif_pos ((GatherDims.mem_sKept _ _).mpr ⟨h10, List.not_mem_nil⟩)]
  rfl

/-- THE ROW GATHER READ AT `(e, q)`: the table at row `clampRow (idx e)`, column `q`. -/
theorem rowGather_apply {R C E w : Nat} (hR : 0 < R)
    (wf : GatherDims.WF ⟨2, ![R, C]⟩ ⟨2, ![E, 1]⟩ ⟨2, ![E, C]⟩ [1] [0] [] [0] [] 1 ![1, C])
    (x : (⟨2, ![R, C]⟩ : Shape).Idx → α) (idx : IVec ⟨2, ![E, 1]⟩ w) (e : Fin E) (q : Fin C) :
    Host.gather (rowGatherDims R C E wf) x idx (ix2 e q)
      = x (ix2 ⟨clampRow R (idx (ix2 e ⟨0, Nat.one_pos⟩)), clampRow_lt hR _⟩ q) := by
  unfold Host.gather
  congr 1
  funext a
  refine Fin.ext ?_
  match a with
  | ⟨0, _⟩ => exact rowGather_axis0 wf idx e q
  | ⟨1, _⟩ => exact rowGather_axis1 wf idx e q

end Gather

/-! ## A column of row numbers or weights, and its broadcast along the columns -/

section Columns
variable {α : Type}

/-- A vector `[E]` viewed as a column `[E, 1]` reads, at `(e, u)`, the vector at `e`. -/
theorem column_apply {E : Nat} (x : (⟨1, ![E]⟩ : Shape).Idx → α)
    (h : (⟨1, ![E]⟩ : Shape).BroadcastsInDim ⟨2, ![E, 1]⟩ (![0] : Fin 1 → Fin 2)) (e : Fin E) (u : Fin 1) :
    broadcastInDim ⟨2, ![E, 1]⟩ ![0] h x (ix2 e u) = x (ix1 e) := by
  refine broadcastInDim_apply _ h x (ix2 e u) (ix1 e) fun a => ?_
  match a with
  | ⟨0, _⟩ =>
    show e.val = if E = 1 then 0 else e.val
    split
    · have := e.isLt; omega
    · rfl

/-- A column `[E, 1]` broadcast along `C` columns reads, at `(e, q)`, the column at `e`. -/
theorem columns_apply {E C : Nat} (x : (⟨2, ![E, 1]⟩ : Shape).Idx → α)
    (h : (⟨2, ![E, 1]⟩ : Shape).BroadcastsInDim ⟨2, ![E, C]⟩ (![0, 1] : Fin 2 → Fin 2)) (e : Fin E) (q : Fin C) :
    broadcastInDim ⟨2, ![E, C]⟩ ![0, 1] h x (ix2 e q) = x (ix2 e ⟨0, Nat.one_pos⟩) := by
  refine broadcastInDim_apply _ h x (ix2 e q) (ix2 e ⟨0, Nat.one_pos⟩) fun a => ?_
  match a with
  | ⟨0, _⟩ =>
    show e.val = if E = 1 then 0 else e.val
    split
    · have := e.isLt; omega
    · rfl
  | ⟨1, _⟩ => rfl

end Columns

/-! ## The accumulating row scatter -/

section Scatter

/-- Under a sum over a second coordinate, a condition that pins that coordinate keeps the one term. -/
theorem sum_pinned {M : Type*} [AddCommMonoid M] {C : ℕ} (A : Prop) [Decidable A] (d : Fin C) (u : Fin C → M) :
    (∑ q : Fin C, if A ∧ q = d then u q else 0) = if A then u d else 0 := by
  by_cases hA : A
  · simp only [hA, true_and, if_true]
    exact Finset.sum_ite_eq' Finset.univ d u |>.trans (by rw [if_pos (Finset.mem_univ d)])
  · simp only [hA, false_and, if_false]
    exact Finset.sum_const_zero

/-- The dimension numbers of a segment sum's scatter: operand `[R, C]`, scatter indices `[E, 1]`, updates `[E, C]`. -/
abbrev rowScatterDims (R C E : Nat)
    (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ where
  updateWindowDims := [1]
  insertedWindowDims := [0]
  scatterDimsToOperandDims := [0]
  indexVectorDim := 1
  wf := wf

variable {R C E w : Nat} (wf : ScatterDims.WF ⟨2, ![R, C]⟩ ⟨2, ![E, 1]⟩ ⟨2, ![E, C]⟩ [1] [0] [0] 1)

theorem start_row (idx : IVec ⟨2, ![E, 1]⟩ w) (e : Fin E) (q : Fin C) :
    (rowScatterDims R C E wf).start (ix2 e q) idx 0 = (idx (ix2 e ⟨0, Nat.one_pos⟩)).toInt := by
  unfold ScatterDims.start
  rw [dif_pos (show (0 : Fin 2) ∈ (rowScatterDims R C E wf).scatterDimsToOperandDims from List.mem_singleton.mpr rfl)]
  have hsi : (rowScatterDims R C E wf).siIdx (ix2 e q) ⟨List.idxOf (0 : Fin 2) (rowScatterDims R C E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

theorem start_col (idx : IVec ⟨2, ![E, 1]⟩ w) (e : Fin E) (q : Fin C) :
    (rowScatterDims R C E wf).start (ix2 e q) idx 1 = 0 := by
  unfold ScatterDims.start
  rw [dif_neg (show ¬(1 : Fin 2) ∈ (rowScatterDims R C E wf).scatterDimsToOperandDims from (by decide : ¬(1 : Fin 2) ∈ ([0] : List (Fin 2))))]

theorem window_row (e : Fin E) (q : Fin C) : (rowScatterDims R C E wf).window (ix2 e q) 0 = 0 := by
  unfold ScatterDims.window
  rw [dif_neg (show ¬(0 : Fin 2) ∈ (rowScatterDims R C E wf).sKept from by simp [ScatterDims.sKept, Shape.kept])]

theorem window_col (e : Fin E) (q : Fin C) : (rowScatterDims R C E wf).window (ix2 e q) 1 = q.val := by
  unfold ScatterDims.window
  rw [dif_pos (show (1 : Fin 2) ∈ (rowScatterDims R C E wf).sKept from by simp [ScatterDims.sKept, Shape.kept])]
  rfl

/-- WHERE UPDATE ENTRY `(e, q)` LANDS: on `(r, d)` exactly when row number `idx e`, read signed, is `r`, and `q = d`. -/
theorem resultIdx?_eq_some_iff (idx : IVec ⟨2, ![E, 1]⟩ w) (e : Fin E) (q : Fin C) (r : Fin R) (d : Fin C) :
    (rowScatterDims R C E wf).resultIdx? (ix2 e q) idx = some (ix2 r d)
      ↔ (idx (ix2 e ⟨0, Nat.one_pos⟩)).toInt = (r.val : ℤ) ∧ q = d := by
  have s0 := start_row wf idx e q
  have s1 := start_col wf idx e q
  have w0 := window_row wf e q
  have w1 := window_col wf e q
  unfold ScatterDims.resultIdx?
  split
  · rename_i h
    rw [Option.some.injEq]
    constructor
    · intro hf
      have h0 := congrArg (fun f => (f 0).val) hf
      have h1 := congrArg (fun f => (f 1).val) hf
      simp only at h0 h1
      have g0 := (h 0).1
      change ((rowScatterDims R C E wf).start (ix2 e q) idx 0 + ((rowScatterDims R C E wf).window (ix2 e q) 0 : ℤ)).toNat = r.val at h0
      change ((rowScatterDims R C E wf).start (ix2 e q) idx 1 + ((rowScatterDims R C E wf).window (ix2 e q) 1 : ℤ)).toNat = d.val at h1
      rw [s0, w0] at h0 g0
      rw [s1, w1] at h1
      refine ⟨by omega, Fin.ext (by omega)⟩
    · rintro ⟨hr, hq⟩
      funext a
      refine Fin.ext ?_
      match a with
      | ⟨0, _⟩ =>
        show ((rowScatterDims R C E wf).start (ix2 e q) idx 0 + ((rowScatterDims R C E wf).window (ix2 e q) 0 : ℤ)).toNat = r.val
        rw [s0, w0, hr]; omega
      | ⟨1, _⟩ =>
        show ((rowScatterDims R C E wf).start (ix2 e q) idx 1 + ((rowScatterDims R C E wf).window (ix2 e q) 1 : ℤ)).toNat = d.val
        rw [s1, w1, hq]; omega
  · rename_i h
    constructor
    · intro hf; exact absurd hf (by simp)
    · rintro ⟨hr, hq⟩
      exfalso
      apply h
      intro a
      match a with
      | ⟨0, _⟩ =>
        show 0 ≤ (rowScatterDims R C E wf).start (ix2 e q) idx 0 + ((rowScatterDims R C E wf).window (ix2 e q) 0 : ℤ)
          ∧ (rowScatterDims R C E wf).start (ix2 e q) idx 0 + ((rowScatterDims R C E wf).window (ix2 e q) 0 : ℤ) < (R : ℤ)
        rw [s0, w0, hr]; have := r.isLt; omega
      | ⟨1, _⟩ =>
        show 0 ≤ (rowScatterDims R C E wf).start (ix2 e q) idx 1 + ((rowScatterDims R C E wf).window (ix2 e q) 1 : ℤ)
          ∧ (rowScatterDims R C E wf).start (ix2 e q) idx 1 + ((rowScatterDims R C E wf).window (ix2 e q) 1 : ℤ) < (C : ℤ)
        rw [s1, w1]; have := q.isLt; omega

/-- THE ACCUMULATING ROW SCATTER READ AT `(r, d)`, at the exact reals: the operand there plus the sum, over the update
    rows whose row number is `r`, of their column `d`. A row number outside `[0, R)` matches no `r`: that update is dropped. -/
theorem rowScatterAdd_apply (x : (⟨2, ![R, C]⟩ : Shape).Idx → EReal) (idx : IVec ⟨2, ![E, 1]⟩ w)
    (upd : (⟨2, ![E, C]⟩ : Shape).Idx → EReal) (r : Fin R) (d : Fin C) :
    Ideal.hostScatterAdd (rowScatterDims R C E wf) x idx upd (ix2 r d)
      = x (ix2 r d) + ∑ e : Fin E, if (idx (ix2 e ⟨0, Nat.one_pos⟩)).toInt = (r.val : ℤ) then upd (ix2 e d) else 0 := by
  unfold Ideal.hostScatterAdd
  congr 1
  rw [Finset.sum_filter, sum_idx2]
  refine Finset.sum_congr rfl (fun e _ => ?_)
  simp only [resultIdx?_eq_some_iff wf idx e _ r d]
  exact sum_pinned _ d (fun q => upd (ix2 e q))

/-- The same for the host operation as a printed program spells it (`Host.scatterAdd`, read at the exact reals). -/
theorem hostRowScatterAdd_apply (x : FVec Ideal ⟨2, ![R, C]⟩ .f32) (idx : IVec ⟨2, ![E, 1]⟩ w)
    (upd : FVec Ideal ⟨2, ![E, C]⟩ .f32) (r : Fin R) (d : Fin C) :
    Host.scatterAdd (rowScatterDims R C E wf) x idx upd (ix2 r d)
      = x (ix2 r d) + ∑ e : Fin E, if (idx (ix2 e ⟨0, Nat.one_pos⟩)).toInt = (r.val : ℤ) then upd (ix2 e d) else 0 :=
  rowScatterAdd_apply wf x idx upd r d

end Scatter

end Cert.LibRowIndex

end
-- ==== Proof.Spec.lean ====
/-
  What both programs compute, as one function of the four arguments. Edge `e` carries a destination row
  `rows e`, a source row `cols e` and a weight `vals e`; its contribution is the feature table's row
  `cols e` (a negative number counted from the end, then clamped into the table) scaled by the weight, and the
  result's row `r` is the sum of the contributions of the edges whose destination, read as a signed integer,
  is `r`. An edge whose destination is no row of the table contributes nowhere.
-/
import Idealize.ShloMosaic.Lib.ValueIdx
import Idealize.ShloMosaic.PureOps.Ideal.Laws
import proofs.«402072_j8856222564800_1_alg».proof.Proof.LibRowIndex

noncomputable section

namespace Cert.Spec

open Idealize.ShloMosaic Idealize.ShloMosaic.ValueIdx Cert.LibRowIndex

/-- A source row number with a negative one counted from the table's end (`n < 0 ↦ n + 100000`). -/
def normCol (w : BitVec 32) : BitVec 32 := Scalar.select (IntOp.cmpi .slt w 0#32) (IntOp.addi w 100000#32) w

/-- The table row a source row number reads: normalised, then clamped into `[0, 99999]`. -/
def tableRow (w : BitVec 32) : Fin 100000 := ⟨clampRow 100000 (normCol w), clampRow_lt (by decide) _⟩

/-- Edge `e`'s contribution at column `d`: its source row's feature times its weight. -/
def edge (cols : IVec ⟨1, ![1600000]⟩ 32) (vals : (⟨1, ![1600000]⟩ : Shape).Idx → EReal)
    (feat : (⟨2, ![100000, 32]⟩ : Shape).Idx → EReal) (e : Fin 1600000) (d : Fin 32) : EReal :=
  feat (ix2 (tableRow (cols (ix1 e))) d) * vals (ix1 e)

/-- THE RESULT at `(r, d)`: the sum of the contributions, at column `d`, of the edges whose destination is `r`. -/
def outAt (rows cols : IVec ⟨1, ![1600000]⟩ 32) (vals : (⟨1, ![1600000]⟩ : Shape).Idx → EReal)
    (feat : (⟨2, ![100000, 32]⟩ : Shape).Idx → EReal) (r : Fin 100000) (d : Fin 32) : EReal :=
  ∑ e : Fin 1600000, if (rows (ix1 e)).toInt = (r.val : ℤ) then edge cols vals feat e d else 0

/-- The result array. -/
def out (rows cols : IVec ⟨1, ![1600000]⟩ 32) (vals : (⟨1, ![1600000]⟩ : Shape).Idx → EReal)
    (feat : (⟨2, ![100000, 32]⟩ : Shape).Idx → EReal) : (⟨2, ![100000, 32]⟩ : Shape).Idx → EReal :=
  fun i => outAt rows cols vals feat (i 0) (i 1)

theorem out_apply (rows cols : IVec ⟨1, ![1600000]⟩ 32) (vals : (⟨1, ![1600000]⟩ : Shape).Idx → EReal)
    (feat : (⟨2, ![100000, 32]⟩ : Shape).Idx → EReal) (r : Fin 100000) (d : Fin 32) :
    out rows cols vals feat (ix2 r d) = outAt rows cols vals feat r d := rfl

end Cert.Spec

end
-- ==== Proof.HostVals.lean ====
/-
  The arrays the kernel region finds. The host pads the three edge arrays from 1600000 to 1601536 entries
  (zero row number, zero source row, zero weight), gathers and scales as the reference does, and hands the region the
  padded row numbers and the scaled rows. Read at an index: below 1600000 they are the original row number and the
  edge's contribution; from 1600000 on the weight is zero, so the scaled row is zero (on the extended reals
  `x · 0 = 0` for every `x`).
-/
import proofs.«402072_j8856222564800_1_alg».proof.Proof.Gen.KernelIdeal.Frame.Runs
import proofs.«402072_j8856222564800_1_alg».proof.Proof.LibRowIndex
import proofs.«402072_j8856222564800_1_alg».proof.Proof.Spec
import Idealize.ShloMosaic.Lib.ValueIdx
import Idealize.ShloMosaic.Lib.KernelVsHost
import Idealize.ShloMosaic.Lib.StableHlo.Run
import Idealize.ShloMosaic.PureOps.Ideal.Laws

noncomputable section

namespace Cert.KernelIdeal.HostVals

open Cert.KernelIdeal Cert.KernelIdeal.Gen Idealize.ShloMosaic Idealize.ShloMosaic.TcCoe Idealize.SL.Sem
open Idealize.ShloMosaic.ValueIdx Cert.LibRowIndex

/-! ## The padded arrays, at any float family -/

section AnyFamily
variable {F : FTy → Type} [FloatOps F]

/-- An integer edge array padded with zero words. -/
def padI (x : IVec S1600000 32) : IVec S1601536 32 :=
  pad S1601536 ![0] ![1536] ![0] x (constantI S_ 32 0#32) pads_S1600000_S1601536_015360 h_S_

/-- The weights padded with the float of the zero word. -/
def padF (x : FVec F S1600000 .f32) : FVec F S1601536 .f32 :=
  pad S1601536 ![0] ![1536] ![0] x (sitofp (F := F) .f32 (constantI S_ 32 0#32)) pads_S1600000_S1601536_015360 h_S_

/-- The scaled gathered rows over the padded edge arrays, as the host computes them. -/
def scaled (cols : IVec S1600000 32) (vals : FVec F S1600000 .f32) (feat : FVec F S100000x32 .f32) : FVec F S1601536x32 .bf16 :=
  truncf .bf16 (mulf
    (Host.gather gather_S100000x32_S1601536x1_S1601536x32_1_0_n_n_0_1_132 feat
      (broadcastInDim S1601536x1 ![0] bcast_S1601536_S1601536x1_0
        (select (cmpi .slt (padI cols) (broadcastInDim S1601536 ![] bcast_S_S1601536 (constantI S_ 32 0#32)))
          (addi (padI cols) (broadcastInDim S1601536 ![] bcast_S_S1601536 (constantI S_ 32 100000#32))) (padI cols))))
    (broadcastInDim S1601536x32 ![0, 1] bcast_S1601536x1_S1601536x32_0_1
      (broadcastInDim S1601536x1 ![0] bcast_S1601536_S1601536x1_0 (padF vals)))) bitsLt_bf16_f32

variable (m : (ℓ : Loc nD τ sig) → Buf (Elt F) ℓ)

/-- Window 0's array as the region finds it: the padded destination rows. -/
theorem V_rows (c : Dev nD) :
    (V m c main_v0 : IVec S1601536 32) = padI (m ((c : Thread nD τ).loc main_arg0)) := by
  dsimp only [V]
  simp only [hostOps0, hostOps0_1, hostOps0_2, hostOps0_3, hostOps0_4, hostOps0_5, hostOps0_6, List.flatten_cons, List.flatten_nil,
    List.append_nil, List.cons_append, List.nil_append]
  after_results
  rfl

set_option maxHeartbeats 4000000 in
/-- Window 1's array as the region finds it: the scaled gathered rows. -/
theorem V_scaled (c : Dev nD) :
    (V m c main_v13 : FVec F S1601536x32 .bf16)
      = scaled (m ((c : Thread nD τ).loc main_arg1)) (m ((c : Thread nD τ).loc main_arg2)) (m ((c : Thread nD τ).loc main_arg3)) := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end AnyFamily

/-! ## Read at an index -/

theorem padI_lt (x : IVec S1600000 32) (e : Fin 1601536) (h : e.val < 1600000) : padI x (ix1 e) = x (ix1 ⟨e.val, h⟩) := by
  unfold padI
  refine pad_apply_of_inside _ _ _ x _ _ _ (ix1 e) (ix1 ⟨e.val, h⟩) fun a => ?_
  match a with
  | ⟨0, _⟩ => show e.val = 0 + e.val * (0 + 1); omega

theorem padF_lt (x : FVec Ideal S1600000 .f32) (e : Fin 1601536) (h : e.val < 1600000) :
    padF x (ix1 e) = x (ix1 ⟨e.val, h⟩) := by
  unfold padF
  refine pad_apply_of_inside _ _ _ x _ _ _ (ix1 e) (ix1 ⟨e.val, h⟩) fun a => ?_
  match a with
  | ⟨0, _⟩ => show e.val = 0 + e.val * (0 + 1); omega

theorem padF_ge (x : FVec Ideal S1600000 .f32) (e : Fin 1601536) (h : 1600000 ≤ e.val) : padF x (ix1 e) = 0 := by
  unfold padF
  rw [pad_apply_of_not_inside _ _ _ x _ _ _ (ix1 e) (0 : Fin 1) (by
    show ¬(0 ≤ e.val ∧ (e.val - 0) % (0 + 1) = 0 ∧ (e.val - 0) / (0 + 1) < 1600000); omega)]
  show (((0#32 : BitVec 32).toInt : ℝ) : EReal) = 0
  norm_num

/-- THE SCALED ROWS AT AN ORIGINAL EDGE: the edge's contribution. -/
theorem scaled_lt (cols : IVec S1600000 32) (vals : FVec Ideal S1600000 .f32) (feat : FVec Ideal S100000x32 .f32)
    (e : Fin 1601536) (h : e.val < 1600000) (q : Fin 32) :
    scaled cols vals feat (ix2 e q) = Cert.Spec.edge cols vals feat ⟨e.val, h⟩ q := by
  unfold scaled
  rw [truncf_apply, mulf_apply]
  have hg : gather_S100000x32_S1601536x1_S1601536x32_1_0_n_n_0_1_132
      = rowGatherDims 100000 32 1601536 Facts₀.gather_S100000x32_S1601536x1_S1601536x32_1_0_n_n_0_1_132_wf := rfl
  rw [hg, rowGather_apply (by decide), column_apply, columns_apply, column_apply, padF_lt vals e h]
  show feat (ix2 ⟨clampRow 100000 (Cert.Spec.normCol (padI cols (ix1 e))), _⟩ q) * _ = _
  simp only [padI_lt cols e h]
  rfl

/-- THE SCALED ROWS IN THE PADDING: zero. -/
theorem scaled_ge (cols : IVec S1600000 32) (vals : FVec Ideal S1600000 .f32) (feat : FVec Ideal S100000x32 .f32)
    (e : Fin 1601536) (h : 1600000 ≤ e.val) (q : Fin 32) : scaled cols vals feat (ix2 e q) = 0 := by
  unfold scaled
  rw [truncf_apply, mulf_apply, columns_apply, column_apply, padF_ge vals e h, mul_zero]

end Cert.KernelIdeal.HostVals

end
-- ==== Proof.LibSums.lean ====
/-
  Sums over blocks, sums with a vanishing tail, and a zero-or-one factor under a sum: the finite-sum
  bookkeeping that turns a blocked one-hot contraction into a sum over the rows it selects.
-/
import Idealize.ShloMosaic.Lib.ValueIdx
import Idealize.ShloMosaic.PureOps.Ideal.Laws

noncomputable section

namespace Cert.LibSums

/-- A sum taken block by block (`A` blocks of `B` consecutive positions) is the sum over all `A * B` positions:
    position `s * B + k` is entry `k` of block `s`. -/
theorem sum_blocks {M : Type*} [AddCommMonoid M] (A B N : ℕ) (hN : A * B = N) (f : Fin N → M)
    (h : ∀ (s : Fin A) (k : Fin B), s.val * B + k.val < N) :
    ∑ s : Fin A, ∑ k : Fin B, f ⟨s.val * B + k.val, h s k⟩ = ∑ e : Fin N, f e := by
  subst hN
  rw [← Fintype.sum_prod_type' (f := fun (s : Fin A) (k : Fin B) => f ⟨s.val * B + k.val, h s k⟩)]
  refine Fintype.sum_equiv finProdFinEquiv _ _ (fun x => ?_)
  refine congrArg f (Fin.ext ?_)
  show x.1.val * B + x.2.val = x.2.val + B * x.1.val
  rw [Nat.add_comm, Nat.mul_comm]

/-- A sum whose terms vanish from position `n` on is the sum of its first `n` terms. -/
theorem sum_zero_tail {M : Type*} [AddCommMonoid M] {n N : ℕ} (hn : n ≤ N) (g : Fin N → M)
    (hz : ∀ e : Fin N, n ≤ e.val → g e = 0) :
    ∑ e : Fin N, g e = ∑ e : Fin n, g (Fin.castLE hn e) := by
  refine (Fintype.sum_of_injective (Fin.castLE hn) (Fin.castLE_injective hn) _ g (fun i hi => hz i ?_) (fun _ => rfl)).symm
  by_contra hlt
  exact hi ⟨⟨i.val, Nat.lt_of_not_le hlt⟩, Fin.ext rfl⟩

/-- A zero-or-one factor selects: `[c] · x` is `x` where `c` holds and `0` elsewhere (on the extended reals
    `0 · x = 0` for every `x`, the infinities included). -/
theorem indicator_mul (c : Prop) [Decidable c] (x : EReal) : (if c then (1 : EReal) else 0) * x = if c then x else 0 := by
  by_cases hc : c
  · rw [if_pos hc, if_pos hc, one_mul]
  · rw [if_neg hc, if_neg hc, zero_mul]

end Cert.LibSums

end
-- ==== Proof.KernelValue.lean ====
/-
  The kernel's result array at the exact reals. Each output block of 2000 rows is reset at the first of its 782
  points and added into at every point; point `s` of row block `b` adds, at `(p, q)`, the sum over its 2048 edge
  positions of [destination = 2000·b + p] × scaled feature. The fold over the 782 points is the sum over all
  782 · 2048 = 1601536 padded positions; the 1536 padding positions carry a zero weight and drop out; what is left
  is the specification's sum over the 1600000 edges.
-/
import proofs.«402072_j8856222564800_1_alg».proof.Proof.ValueP
import proofs.«402072_j8856222564800_1_alg».proof.Proof.Payload
import proofs.«402072_j8856222564800_1_alg».proof.Proof.HostVals
import proofs.«402072_j8856222564800_1_alg».proof.Proof.LibSums
import proofs.«402072_j8856222564800_1_alg».proof.Proof.LibWords
import proofs.«402072_j8856222564800_1_alg».proof.Proof.Spec
import Idealize.ShloMosaic.Lib.ValueIdx
import Idealize.ShloMosaic.Lib.Pipeline.Value
import Idealize.ShloMosaic.PureOps.Ideal.Laws

noncomputable section

namespace Cert.KernelIdeal.KValue

open Cert.KernelIdeal Cert.KernelIdeal.Gen Cert.KernelIdeal.ValueP Idealize.ShloMosaic Idealize.ShloMosaic.TcCoe Idealize.SL.Sem
open Idealize.ShloMosaic.ValueIdx

variable (m : (ℓ : Loc nD τ sig) → Buf (Elt Ideal) ℓ)

/-! ## The blocks and the arrays, at their literal types -/

/-- Point `t`'s block of destination rows. -/
abbrev rowsBlk (c : Dev nD) (t : Fin cfg0.N) : Vec Ideal S2048 .i32 := iblk m c 0 t
/-- Point `t`'s block of scaled features. -/
abbrev scaledBlk (c : Dev nD) (t : Fin cfg0.N) : Vec Ideal S2048x32 .bf16 := iblk m c 1 t
/-- The padded destination rows as the region finds them. -/
abbrev rowsArr (c : Dev nD) : IVec S1601536 32 := V m c main_v0
/-- The scaled features as the region finds them. -/
abbrev scaledArr (c : Dev nD) : FVec Ideal S1601536x32 .bf16 := V m c main_v13

/-! ## Where a point's blocks lie -/

theorem lt_N (t : Fin cfg0.N) : t.val < 39100 := lt_of_lt_of_eq t.isLt N_0

/-- The row-block coordinate of point `t` is `t / 782`; -/
theorem coords_rowBlock (t : Fin cfg0.N) : (grid0.coords t 0).val = t.val / 782 := by
  have hN := lt_N t
  show t.val / grid0.stride 0 % 50 = t.val / 782
  rw [show grid0.stride 0 = 782 from by decide]
  omega

/-- its edge-block coordinate is `t % 782`. -/
theorem coords_edgeBlock (t : Fin cfg0.N) : (grid0.coords t 1).val = t.val % 782 := by
  show t.val / grid0.stride 1 % 782 = t.val % 782
  rw [show grid0.stride 1 = 1 from by decide, Nat.div_one]

/-- Both input windows' block number at point `t` is the edge-block coordinate. -/
theorem index_rows (t : Fin cfg0.N) : win0_0.index t (0 : Fin 1) = t.val % 782 := by
  show (BitVec.ofNat 32 (grid0.coords t 1).val).toNat = t.val % 782
  rw [BitVec.toNat_ofNat, coords_edgeBlock]
  exact Nat.mod_eq_of_lt (by have := Nat.mod_lt t.val (by decide : 0 < 782); omega)

theorem index_scaled0 (t : Fin cfg0.N) : win0_1.index t (0 : Fin 2) = t.val % 782 := by
  show (BitVec.ofNat 32 (grid0.coords t 1).val).toNat = t.val % 782
  rw [BitVec.toNat_ofNat, coords_edgeBlock]
  exact Nat.mod_eq_of_lt (by have := Nat.mod_lt t.val (by decide : 0 < 782); omega)

theorem index_scaled1 (t : Fin cfg0.N) : win0_1.index t (1 : Fin 2) = 0 := rfl

/-- Entry `k` of point `t`'s destination-row block is the array's entry `(t % 782) · 2048 + k`. -/
theorem rowsBlk_apply (c : Dev nD) (t : Fin cfg0.N) (k : Fin 2048) (e : Fin 1601536) (he : e.val = t.val % 782 * 2048 + k.val) :
    rowsBlk m c t (ix1 k) = rowsArr m c (ix1 e) := by
  show V m c main_v0 (((cfg0.win 0).blk t).view.emb (ix1 k)) = V m c main_v0 (ix1 e)
  refine congrArg _ (funext fun a => Fin.ext ?_)
  match a with
  | ⟨0, _⟩ =>
    show win0_0.index t (0 : Fin 1) * 2048 + 1 * k.val = e.val
    rw [index_rows, he]; omega

/-- Entry `(k, q)` of point `t`'s scaled-feature block is the array's entry `((t % 782) · 2048 + k, q)`. -/
theorem scaledBlk_apply (c : Dev nD) (t : Fin cfg0.N) (k : Fin 2048) (q : Fin 32) (e : Fin 1601536)
    (he : e.val = t.val % 782 * 2048 + k.val) :
    scaledBlk m c t (ix2 k q) = scaledArr m c (ix2 e q) := by
  show V m c main_v13 (((cfg0.win 1).blk t).view.emb (ix2 k q)) = V m c main_v13 (ix2 e q)
  refine congrArg _ (funext fun a => Fin.ext ?_)
  match a with
  | ⟨0, _⟩ =>
    show win0_1.index t (0 : Fin 2) * 2048 + 1 * k.val = e.val
    rw [index_scaled0, he]; omega
  | ⟨1, _⟩ =>
    show win0_1.index t (1 : Fin 2) * 32 + 1 * q.val = q.val
    rw [index_scaled1]; omega

/-! ## A point's addend, and the fold -/

/-- What point `n` adds to its output block at entry `j`. -/
def addend (c : Dev nD) (n : ℕ) (j : S2000x32.Idx) : EReal :=
  if h : n < cfg0.N then
    ∑ k : Fin 2048, (if rowsBlk m c ⟨n, h⟩ (ix1 k) = Payload.rowWord (grid0.coords ⟨n, h⟩ 0).val (j 0) then (1 : EReal) else 0)
      * scaledBlk m c ⟨n, h⟩ (ix2 k (j 1))
  else 0

theorem reset_apply (c : Dev nD) (n : ℕ) (h : n < cfg0.N) (j : S2000x32.Idx) :
    reset2 m c n h j = 0 + addend m c n j := by
  obtain ⟨p, q, rfl⟩ : ∃ (p : Fin 2000) (q : Fin 32), j = ix2 p q := ⟨j 0, j 1, eq_ix2 j⟩
  unfold reset2 addend
  rw [dif_pos h, Payload.pay2_apply, Payload.pay1_apply]

theorem step_apply (c : Dev nD) (n : ℕ) (h : n < cfg0.N) (acc : Vec Ideal S2000x32 .f32) (j : S2000x32.Idx) :
    step2 m c n h acc j = acc j + addend m c n j := by
  obtain ⟨p, q, rfl⟩ : ∃ (p : Fin 2000) (q : Fin 32), j = ix2 p q := ⟨j 0, j 1, eq_ix2 j⟩
  unfold step2 addend
  rw [dif_pos h, Payload.pay2_apply]

/-- THE ADDEND OF POINT `s` OF ROW BLOCK `b`, over the arrays: the sum over the point's 2048 positions of
    [destination row = 2000·b + p] × scaled feature. -/
theorem addend_eq (c : Dev nD) (b : ℕ) (hb : b < 50) (s : Fin 782) (p : Fin 2000) (q : Fin 32)
    (hpos : ∀ (s : Fin 782) (k : Fin 2048), s.val * 2048 + k.val < 1601536) :
    addend m c (782 * b + s.val) (ix2 p q)
      = ∑ k : Fin 2048, (if rowsArr m c (ix1 ⟨s.val * 2048 + k.val, hpos s k⟩) = BitVec.ofNat 32 (b * 2000 + p.val) then (1 : EReal) else 0)
          * scaledArr m c (ix2 ⟨s.val * 2048 + k.val, hpos s k⟩ q) := by
  have hs := s.isLt
  have hn : 782 * b + s.val < cfg0.N := by rw [show cfg0.N = 39100 from N_0]; omega
  unfold addend
  rw [dif_pos hn]
  refine Finset.sum_congr rfl fun k _ => ?_
  have hmod : (782 * b + s.val) % 782 = s.val := by omega
  have hdiv : (782 * b + s.val) / 782 = b := by omega
  rw [rowsBlk_apply m c ⟨782 * b + s.val, hn⟩ k ⟨s.val * 2048 + k.val, hpos s k⟩ (by show _ = (782 * b + s.val) % 782 * 2048 + k.val; rw [hmod]),
    scaledBlk_apply m c ⟨782 * b + s.val, hn⟩ k q ⟨s.val * 2048 + k.val, hpos s k⟩ (by show _ = (782 * b + s.val) % 782 * 2048 + k.val; rw [hmod]),
    coords_rowBlock]
  show (if _ = Payload.rowWord ((782 * b + s.val) / 782) p then (1 : EReal) else 0) * _ = _
  rw [hdiv]
  unfold Payload.rowWord
  rw [Cert.LibWords.ofNat_add_mul]

theorem pos_lt (s : Fin 782) (k : Fin 2048) : s.val * 2048 + k.val < 1601536 := by
  have := s.isLt; have := k.isLt; omega

/-- THE RESULT ARRAY AT `(r, d)`: the sum over all padded edge positions of [destination row = r] × scaled feature. -/
theorem G2_apply (c : Dev nD) (r : Fin 100000) (d : Fin 32) :
    G2 m c (ix2 r d)
      = ∑ e : Fin 1601536, (if rowsArr m c (ix1 e) = BitVec.ofNat 32 r.val then (1 : EReal) else 0) * scaledArr m c (ix2 e d) := by
  have hr := r.isLt
  have hd := d.isLt
  have hN : cfg0.N = 39100 := N_0
  have hrun : run2Of (ix2 r d) = r.val / 2000 := by
    show 1 * (r.val / 2000 - 0) + 1 * (d.val / 32 - 0) = r.val / 2000
    omega
  have hloc : loc2Of (ix2 r d) = ix2 (⟨r.val % 2000, Nat.mod_lt _ (by decide)⟩ : Fin 2000) d := by
    funext a
    refine Fin.ext ?_
    match a with
    | ⟨0, _⟩ => rfl
    | ⟨1, _⟩ => show d.val % 32 = d.val; omega
  have hlt : 782 * run2Of (ix2 r d) + 781 < cfg0.N := by rw [hrun, hN]; omega
  show (G2 m c (ix2 r d) : EReal) = _
  unfold G2
  rw [dif_pos hlt]
  rw [Pipeline.accAt_add_apply (reset2 m c) (step2 m c) (fun _ => (0 : EReal)) (addend m c) (782 * run2Of (ix2 r d)) 781
    (fun h i => reset_apply m c _ h i) (fun n h acc i _ _ => step_apply m c n h acc i) 781 le_rfl hlt (loc2Of (ix2 r d))]
  rw [show (781 + 1 : ℕ) = 782 from rfl, zero_add, Finset.sum_range, hloc, hrun,
    ← Cert.LibSums.sum_blocks 782 2048 1601536 (by decide)
      (fun e => (if rowsArr m c (ix1 e) = BitVec.ofNat 32 r.val then (1 : EReal) else 0) * scaledArr m c (ix2 e d)) pos_lt]
  change @Eq EReal _ _
  refine Finset.sum_congr rfl fun s _ => ?_
  rw [addend_eq m c (r.val / 2000) (by omega) s _ d pos_lt]
  have hrow : r.val / 2000 * 2000 + r.val % 2000 = r.val := by omega
  simp only [Fin.val_mk, hrow]

/-! ## The kernel's result is the specification -/

/-- THE RESULT ARRAY IS THE SPECIFICATION of the four arguments. -/
theorem G2_eq_spec (c : Dev nD) :
    G2 m c = Cert.Spec.out (m ((c : Thread nD τ).loc main_arg0)) (m ((c : Thread nD τ).loc main_arg1))
      (m ((c : Thread nD τ).loc main_arg2)) (m ((c : Thread nD τ).loc main_arg3)) := by
  funext i
  obtain ⟨r, d, rfl⟩ : ∃ (r : Fin 100000) (d : Fin 32), i = ix2 r d := ⟨i 0, i 1, eq_ix2 i⟩
  show (G2 m c (ix2 r d) : EReal) = _
  rw [G2_apply, Cert.Spec.out_apply]
  unfold Cert.Spec.outAt
  have hrows : rowsArr m c = HostVals.padI (m ((c : Thread nD τ).loc main_arg0)) := HostVals.V_rows m c
  have hscaled : scaledArr m c = HostVals.scaled (m ((c : Thread nD τ).loc main_arg1)) (m ((c : Thread nD τ).loc main_arg2))
      (m ((c : Thread nD τ).loc main_arg3)) := HostVals.V_scaled m c
  rw [hrows, hscaled]
  have htail := Cert.LibSums.sum_zero_tail (n := 1600000) (N := 1601536) (by decide)
    (fun e : Fin 1601536 => (if HostVals.padI (m ((c : Thread nD τ).loc main_arg0)) (ix1 e) = BitVec.ofNat 32 r.val then (1 : EReal) else 0)
      * HostVals.scaled (F := Ideal) (m ((c : Thread nD τ).loc main_arg1)) (m ((c : Thread nD τ).loc main_arg2)) (m ((c : Thread nD τ).loc main_arg3)) (ix2 e d))
    (fun e he => by simp only [HostVals.scaled_ge _ _ _ e he d, mul_zero])
  rw [htail]
  change @Eq EReal _ _
  refine Finset.sum_congr rfl fun e _ => ?_
  have he : (Fin.castLE (by decide : 1600000 ≤ 1601536) e).val < 1600000 := e.isLt
  show (if HostVals.padI _ (ix1 (Fin.castLE _ e)) = _ then (1 : EReal) else 0) * HostVals.scaled (F := Ideal) _ _ _ (ix2 (Fin.castLE _ e) d) = _
  rw [Cert.LibSums.indicator_mul, HostVals.padI_lt _ _ he, HostVals.scaled_lt _ _ _ _ he d]
  exact if_congr (Cert.LibWords.eq_ofNat_iff_toInt _ r.val (by have := r.isLt; omega)) rfl rfl

end Cert.KernelIdeal.KValue

end
-- ==== Proof.RefValue.lean ====
/-
  The reference's result, read index by index: its accumulating scatter of the scaled gathered rows is, at row
  `r` and column `d`, zero plus the sum over the edges whose destination row is `r` of the source row's
  feature times the weight — the specification's sum.
-/
import proofs.«402072_j8856222564800_1_alg».proof.Proof.Gen.ReferenceIdeal.Run
import proofs.«402072_j8856222564800_1_alg».proof.Proof.LibRowIndex
import proofs.«402072_j8856222564800_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx Cert.LibRowIndex

/-- The reference's source-row column at edge `e`: the normalised source row number. -/
theorem srcCol_apply (cols : IVec S1600000 32) (e : Fin 1600000) :
    broadcastInDim S1600000x1 ![0] bcast_S1600000_S1600000x1_0
      (select (cmpi .slt cols (broadcastInDim S1600000 ![] bcast_S_S1600000 (constantI S_ 32 0#32)))
        (addi cols (broadcastInDim S1600000 ![] bcast_S_S1600000 (constantI S_ 32 100000#32))) cols) (ix2 e ⟨0, Nat.one_pos⟩)
      = Cert.Spec.normCol (cols (ix1 e)) := by
  rw [column_apply]
  rfl

/-- The gathered source row of edge `e`, at column `d`: the table at the row its source number reads. -/
theorem gathered_apply (cols : IVec S1600000 32) (feat : FVec Ideal S100000x32 .f32) (e : Fin 1600000) (d : Fin 32) :
    Host.gather gather_S100000x32_S1600000x1_S1600000x32_1_0_n_n_0_1_132 feat
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)) (ix2 e d)
      = feat (ix2 (Cert.Spec.tableRow (cols (ix1 e))) d) := by
  have hg : gather_S100000x32_S1600000x1_S1600000x32_1_0_n_n_0_1_132
      = rowGatherDims 100000 32 1600000 Facts₀.gather_S100000x32_S1600000x1_S1600000x32_1_0_n_n_0_1_132_wf := rfl
  rw [hg, rowGather_apply (R := 100000) (Nat.succ_pos _), srcCol_apply]
  rfl

/-- The weight column broadcast along the 32 columns reads the edge's weight. -/
theorem weight_apply (vals : FVec Ideal S1600000 .f32) (e : Fin 1600000) (d : Fin 32) :
    broadcastInDim S1600000x32 ![0, 1] bcast_S1600000x1_S1600000x32_0_1
        (broadcastInDim S1600000x1 ![0] bcast_S1600000_S1600000x1_0 vals) (ix2 e d) = vals (ix1 e) := by
  rw [columns_apply, column_apply]

/-- The reference's update rows: edge `e`'s contribution. -/
theorem upd_apply (cols : IVec S1600000 32) (vals : FVec Ideal S1600000 .f32) (feat : FVec Ideal S100000x32 .f32)
    (e : Fin 1600000) (d : Fin 32) :
    mulf (Host.gather gather_S100000x32_S1600000x1_S1600000x32_1_0_n_n_0_1_132 feat
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
      (broadcastInDim S1600000x32 ![0, 1] bcast_S1600000x1_S1600000x32_0_1
        (broadcastInDim S1600000x1 ![0] bcast_S1600000_S1600000x1_0 vals)) (ix2 e d)
      = Cert.Spec.edge cols vals feat e d := by
  rw [mulf_apply, gathered_apply, weight_apply]
  rfl

/-- THE REFERENCE'S TERM IS THE SPECIFICATION. -/
theorem result_eq (rows cols : IVec S1600000 32) (vals : FVec Ideal S1600000 .f32) (feat : FVec Ideal S100000x32 .f32) :
    Host.scatterAdd scatter_S100000x32_S1600000x1_S1600000x32_1_0_0_1
      (broadcastInDim S100000x32 ![] bcast_S_S100000x32 (constant (F := Ideal) S_ .f32 0x00000000#32))
      (broadcastInDim S1600000x1 ![0] bcast_S1600000_S1600000x1_0 rows)
      (mulf (Host.gather gather_S100000x32_S1600000x1_S1600000x32_1_0_n_n_0_1_132 feat
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols)))
        (broadcastInDim S1600000x32 ![0, 1] bcast_S1600000x1_S1600000x32_0_1
          (broadcastInDim S1600000x1 ![0] bcast_S1600000_S1600000x1_0 vals)))
      = Cert.Spec.out rows cols vals feat := by
  funext i
  obtain ⟨r, d, rfl⟩ : ∃ (r : Fin 100000) (d : Fin 32), i = ix2 r d := ⟨i 0, i 1, eq_ix2 i⟩
  have hs : scatter_S100000x32_S1600000x1_S1600000x32_1_0_0_1
      = rowScatterDims 100000 32 1600000 Facts₀.scatter_S100000x32_S1600000x1_S1600000x32_1_0_0_1_wf := rfl
  rw [hs, hostRowScatterAdd_apply, Cert.Spec.out_apply]
  unfold Cert.Spec.outAt
  have hz : broadcastInDim S100000x32 ![] bcast_S_S100000x32 (constant (F := Ideal) S_ .f32 0x00000000#32) (ix2 r d) = 0 := by
    show Ideal.ofBits .f32 0x00000000#32 = 0
    exact Ideal.ofBits_zero_f32
  rw [hz, zero_add]
  refine Finset.sum_congr rfl fun e _ => ?_
  rw [column_apply, upd_apply]

end Cert.ReferenceIdeal.RefValue

end
-- ==== Proof.lean ====
/-
  A sparse matrix in coordinate form times a dense feature table: edge `e` sends `vals e · features[cols e]` to
  output row `rows e`. The reference gathers, scales and scatter-adds (a segment sum). The kernel pads the edge
  list with zero-weight edges to a multiple of 2048 and computes each block of 2000 output rows as a sum, over the
  782 edge blocks, of (one-hot selector of the block's rows) × (scaled gathered features): a matrix product whose
  left factor has entries 0 and 1. At the exact reals both are, at row `r` and column `d`, the sum over the edges with
  destination `r` of feature × weight: the selector's product keeps exactly the terms of those edges (`1 · x = x`,
  `0 · x = 0` on the extended reals, infinities included), the order of summation does not matter (addition of extended
  reals is commutative and associative), the padding edges contribute `x · 0 = 0`, and an edge whose destination is
  outside `[0, 100000)` matches no row of any block, as the reference's scatter drops it. No finiteness is used.
-/
import proofs.«402072_j8856222564800_1_alg».proof.Defs
import proofs.«402072_j8856222564800_1_alg».proof.Proof.Gen.Kernel.Frame
import proofs.«402072_j8856222564800_1_alg».proof.Proof.ValueP
import proofs.«402072_j8856222564800_1_alg».proof.Proof.Gen.Pre_finite_inputs
import proofs.«402072_j8856222564800_1_alg».proof.Proof.Gen.ReferenceIdeal.Run
import proofs.«402072_j8856222564800_1_alg».proof.Proof.KernelValue
import proofs.«402072_j8856222564800_1_alg».proof.Proof.RefValue
import Idealize.ShloMosaic.Adequacy
import Idealize.ShloMosaic.Init

noncomputable section

namespace Cert.Proof

open Idealize.ShloMosaic Idealize.SL.Sem

/-- The idealized kernel runs and leaves its arguments as they were: its value run, the result dropped. -/
theorem frame_KernelIdeal : frame_KernelIdeal := fun m ρ _ =>
  (θ_run Cert.KernelIdeal.defs _ _).mono (fun _ h c => (h c).2) (Cert.KernelIdeal.ValueP.run (F := Ideal) m ρ)

/-- The idealized reference runs and leaves its arguments as they were: its run, the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments, the kernel's result array (the fold of its 782 one-hot products per
    row block) and the reference's (the accumulating scatter) are both the specification's sum over the edges. -/
theorem algebraic_KernelIdeal_ReferenceIdeal : algebraic_KernelIdeal_ReferenceIdeal := by
  intro m ρ m' ρ' _ hagree
  refine ⟨_, Cert.KernelIdeal.ValueP.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.RefValue.result_eq, Cert.KernelIdeal.KValue.G2_eq_spec,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
